-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S1024x320 : Shape := ⟨2, ![1024, 320]⟩
abbrev S320 : Shape := ⟨1, ![320]⟩
abbrev S1024x1 : Shape := ⟨2, ![1024, 1]⟩
abbrev S1 : Shape := ⟨1, ![1]⟩
abbrev S_ : Shape := ⟨0, ![]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S1024x320 : S_.BroadcastsInDim S1024x320 (![] : Fin 0 → Fin S1024x320.rank)
  reducesTo_S1024x320_S_d0_1 : S1024x320.ReducesTo [0, 1] S_
  bcast_S_S320 : S_.BroadcastsInDim S320 (![] : Fin 0 → Fin S320.rank)
  reducesTo_S320_S_d0 : S320.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x1024 .f32) (main_arg1 : FVec F S1024x320 .f32) (main_arg2 : FVec F S320 .f32) (main_arg3 : FVec F S1024x1 .f32) (main_arg4 : FVec F S1 .f32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S1024x320 .f32 := Host.absf main_arg1
  let main_cst_0 : FVec F S_ .f32 := constant S_ .f32 0x7F800000#32
  let main_v5 : FVec F S1024x320 .f32 := broadcastInDim S1024x320 ![] bcast_S_S1024x320 main_cst_0
  let main_v6 : IVec S1024x320 1 := cmpf .olt main_v4 main_v5
  let main_c_1 : IVec S_ 1 := constantI S_ 1 1#1
  let main_v7 : IVec S_ 1 := (fun x v => Host.reduce IntOp.andi x v reducesTo_S1024x320_S_d0_1 h_S_) main_v6 main_c_1
  let main_v8 : IVec S_ 1 := andi main_v3 main_v7
  let main_v9 : FVec F S320 .f32 := Host.absf main_arg2
  let main_cst_2 : FVec F S_ .f32 := constant S_ .f32 0x7F800000#32
  let main_v10 : FVec F S320 .f32 := broadcastInDim S320 ![] bcast_S_S320 main_cst_2
  let main_v11 : IVec S320 1 := cmpf .olt main_v9 main_v10
  let main_c_3 : IVec S_ 1 := constantI S_ 1 1#1
  let main_v12 : IVec S_ 1 := (fun x v => Host.reduce IntOp.andi x v reducesTo_S320_S_d0 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_v13 main_v16
-- ==== Kernel.lean ====
abbrev S100000x1024 : Shape := ⟨2, ![100000, 1024]⟩
abbrev S1024x320 : Shape := ⟨2, ![1024, 320]⟩
abbrev S320 : Shape := ⟨1, ![320]⟩
abbrev S1024x1 : Shape := ⟨2, ![1024, 1]⟩
abbrev S1 : Shape := ⟨1, ![1]⟩
abbrev S_ : Shape := ⟨0, ![]⟩
abbrev S1024x64 : Shape := ⟨2, ![1024, 64]⟩
abbrev S1024x127 : Shape := ⟨2, ![1024, 127]⟩
abbrev S1024x512 : Shape := ⟨2, ![1024, 512]⟩
abbrev S1x320 : Shape := ⟨2, ![1, 320]⟩
abbrev S1x1 : Shape := ⟨2, ![1, 1]⟩
abbrev S100000x320 : Shape := ⟨2, ![100000, 320]⟩
abbrev S100000x1 : Shape := ⟨2, ![100000, 1]⟩
abbrev S2000x1024 : Shape := ⟨2, ![2000, 1024]⟩
abbrev S2000x320 : Shape := ⟨2, ![2000, 320]⟩
abbrev S2000x1 : Shape := ⟨2, ![2000, 1]⟩
abbrev S2000x512 : Shape := ⟨2, ![2000, 512]⟩

abbrev nBuf : Space → Nat
  | .hbm => 15
  | .vmem => 9
  | .smem => 0
  | _ => 0

abbrev bufTy : (tb : Table) → Fin (tcTables nBuf tb) → BufTy
  | .hbm, ⟨0, _⟩ => ⟨S100000x1024, .f32⟩
  | .hbm, ⟨1, _⟩ => ⟨S1024x320, .f32⟩
  | .hbm, ⟨2, _⟩ => ⟨S320, .f32⟩
  | .hbm, ⟨3, _⟩ => ⟨S1024x1, .f32⟩
  | .hbm, ⟨4, _⟩ => ⟨S1, .f32⟩
  | .hbm, ⟨5, _⟩ => ⟨S_, .f32⟩
  | .hbm, ⟨6, _⟩ => ⟨S1024x64, .f32⟩
  | .hbm, ⟨7, _⟩ => ⟨S_, .f32⟩
  | .hbm, ⟨8, _⟩ => ⟨S1024x127, .f32⟩
  | .hbm, ⟨9, _⟩ => ⟨S1024x512, .f32⟩
  | .hbm, ⟨10, _⟩ => ⟨S1024x512, .bf16⟩
  | .hbm, ⟨11, _⟩ => ⟨S1x320, .f32⟩
  | .hbm, ⟨12, _⟩ => ⟨S1x1, .f32⟩
  | .hbm, ⟨13, _⟩ => ⟨S100000x320, .f32⟩
  | .hbm, ⟨14, _⟩ => ⟨S100000x1, .f32⟩
  | .local _ .vmem, ⟨0, _⟩ => ⟨S2000x1024, .f32⟩
  | .local _ .vmem, ⟨1, _⟩ => ⟨S2000x1024, .f32⟩
  | .local _ .vmem, ⟨2, _⟩ => ⟨S1024x512, .bf16⟩
  | .local _ .vmem, ⟨3, _⟩ => ⟨S1x320, .f32⟩
  | .local _ .vmem, ⟨4, _⟩ => ⟨S1x1, .f32⟩
  | .local _ .vmem, ⟨5, _⟩ => ⟨S2000x320, .f32⟩
  | .local _ .vmem, ⟨6, _⟩ => ⟨S2000x320, .f32⟩
  | .local _ .vmem, ⟨7, _⟩ => ⟨S2000x1, .f32⟩
  | .local _ .vmem, ⟨8, _⟩ => ⟨S2000x1, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1024x64 : S_.BroadcastsInDim S1024x64 (![] : Fin 0 → Fin S1024x64.rank)
  bcast_S_S1024x127 : S_.BroadcastsInDim S1024x127 (![] : Fin 0 → Fin S1024x127.rank)
  concatenates_S1024x320_S1024x64_S1024x1_S1024x127_S1024x512_d1 : Shape.Concatenates [S1024x320, S1024x64, S1024x1, S1024x127] S1024x512 1
  bitsLt_bf16_f32 : FTy.bits .bf16 < FTy.bits .f32
  shapeCasts_S320_S1x320 : S320.ShapeCasts S1x320
  shapeCasts_S1_S1x1 : S1.ShapeCasts S1x1
  inb_S2000x1024_S2000x1024_0_0 : ∀ a, (![0, 0] : Fin 2 → Nat) a + S2000x1024.size a ≤ S2000x1024.size a
  h_S2000x1024 : 0 < S2000x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S2000x512_o0_0_S2000x320 : S2000x512.Slices ![0, 0] S2000x320
  inb_S1x320_S1x320_0_0 : ∀ a, (![0, 0] : Fin 2 → Nat) a + S1x320.size a ≤ S1x320.size a
  h_S1x320 : 0 < S1x320.numel
  shapeCasts_S1x320_S1x320 : S1x320.ShapeCasts S1x320
  broadcasts_S1x320_S2000x320 : S1x320.Broadcasts S2000x320
  slices_S2000x512_o0_384_S2000x1 : S2000x512.Slices ![0, 384] S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x320_S2000x320_0_0 : ∀ a, (![0, 0] : Fin 2 → Nat) a + S2000x320.size a ≤ S2000x320.size a
  h_S2000x320 : 0 < S2000x320.numel
  inb_S2000x1_S2000x1_0_0 : ∀ a, (![0, 0] : Fin 2 → Nat) a + S2000x1.size a ≤ S2000x1.size a
  h_S2000x1 : 0 < S2000x1.numel
  dot_S2000x1024_S1024x512_S2000x512_1_0_0_1_n_n_wf : DotDims.WF S2000x1024 S1024x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .f32 = 32 ∨ (Rect.block (s := S100000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x320.size a ≤ S1x320.size a
  hwx0_2 : ∀ i : grid0.Coords, EltTy.bits .f32 = 32 ∨ (Rect.block (s := S1x320) S1x320.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x320.size a ≤ S100000x320.size a
  hwx0_4 : ∀ i : grid0.Coords, EltTy.bits .f32 = 32 ∨ (Rect.block (s := S100000x320) S2000x320.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S100000x1.size a
  hwx0_5 : ∀ i : grid0.Coords, EltTy.bits .f32 = 32 ∨ (Rect.block (s := S100000x1) S2000x1.size (cc0_transform_5 i) (hinb0_5 i)).WholeWords (EltTy.packing .f32)

variable [Facts₀]

def dot_S2000x1024_S1024x512_S2000x512_1_0_0_1_n_n : DotDims S2000x1024 S1024x512 S2000x512 where
  lhsContracting := [1]
  rhsContracting := [0]
  lhsNonContracting := [0]
  rhsNonContracting := [1]
  lhsBatch := []
  rhsBatch := []
  wf := dot_S2000x1024_S1024x512_S2000x512_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x320.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S2000x320.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S2000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x1024 : Shape := ⟨2, ![100000, 1024]⟩
abbrev S1024x320 : Shape := ⟨2, ![1024, 320]⟩
abbrev S320 : Shape := ⟨1, ![320]⟩
abbrev S1024x1 : Shape := ⟨2, ![1024, 1]⟩
abbrev S1 : Shape := ⟨1, ![1]⟩
abbrev S100000x320 : Shape := ⟨2, ![100000, 320]⟩
abbrev S1x320 : Shape := ⟨2, ![1, 320]⟩
abbrev S100000x1 : Shape := ⟨2, ![100000, 1]⟩
abbrev S1x1 : Shape := ⟨2, ![1, 1]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S100000x1024, .f32⟩
  | .hbm, ⟨1, _⟩ => ⟨S1024x320, .f32⟩
  | .hbm, ⟨2, _⟩ => ⟨S320, .f32⟩
  | .hbm, ⟨3, _⟩ => ⟨S1024x1, .f32⟩
  | .hbm, ⟨4, _⟩ => ⟨S1, .f32⟩
  | .hbm, ⟨5, _⟩ => ⟨S100000x320, .f32⟩
  | .hbm, ⟨6, _⟩ => ⟨S1x320, .f32⟩
  | .hbm, ⟨7, _⟩ => ⟨S100000x320, .f32⟩
  | .hbm, ⟨8, _⟩ => ⟨S100000x320, .f32⟩
  | .hbm, ⟨9, _⟩ => ⟨S100000x1, .f32⟩
  | .hbm, ⟨10, _⟩ => ⟨S1x1, .f32⟩
  | .hbm, ⟨11, _⟩ => ⟨S100000x1, .f32⟩
  | .hbm, ⟨12, _⟩ => ⟨S100000x1, .f32⟩
  | .hbm, ⟨13, _⟩ => ⟨S100000x1, .f32⟩
  | .hbm, ⟨14, _⟩ => ⟨S100000x1, .f32⟩
  | .hbm, ⟨15, _⟩ => ⟨S_, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S320_S1x320_1 : S320.BroadcastsInDim S1x320 (![1] : Fin 1 → Fin S1x320.rank)
  bcast_S1x320_S100000x320_0_1 : S1x320.BroadcastsInDim S100000x320 (![0, 1] : Fin 2 → Fin S100000x320.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x1024_S1024x320_S100000x320_1_0_0_1_n_n_wf : DotDims.WF S100000x1024 S1024x320 S100000x320 [1] [0] [0] [1] [] []
  dot_S100000x1024_S1024x1_S100000x1_1_0_0_1_n_n_wf : DotDims.WF S100000x1024 S1024x1 S100000x1 [1] [0] [0] [1] [] []

variable [Facts₀]

def dot_S100000x1024_S1024x320_S100000x320_1_0_0_1_n_n : DotDims S100000x1024 S1024x320 S100000x320 where
  lhsContracting := [1]
  rhsContracting := [0]
  lhsNonContracting := [0]
  rhsNonContracting := [1]
  lhsBatch := []
  rhsBatch := []
  wf := dot_S100000x1024_S1024x320_S100000x320_1_0_0_1_n_n_wf
def dot_S100000x1024_S1024x1_S100000x1_1_0_0_1_n_n : DotDims S100000x1024 S1024x1 S100000x1 where
  lhsContracting := [1]
  rhsContracting := [0]
  lhsNonContracting := [0]
  rhsNonContracting := [1]
  lhsBatch := []
  rhsBatch := []
  wf := dot_S100000x1024_S1024x1_S100000x1_1_0_0_1_n_n_wf

class Facts : Prop extends Facts₀ where

variable [Facts]
-- ==== Proof.KernelFrame.lean ====
/-
  The frame of `Kernel`: @main's eight host operations and then its one launch, a grid of 50 points.

  At each point the body loads four input blocks whole (2000 rows of the activations; the fused 1024 × 512 weight; the
  1 × 320 and 1 × 1 biases), and stores two output blocks whole (2000 × 320 and 2000 × 1), each a pure function of the
  loads. So after the body an output's staging buffer holds that function of the point's input blocks, an input's still
  holds its block, and the launch leaves every array outside the two results as the region found it; no host
  operation before the region writes an argument, so the arguments end as launched.
  Stated at any float instance `F`.
-/
import proofs.«169564_j18090402250919_2_alg».proof.Proof.Gen.Kernel.Launch
import proofs.«169564_j18090402250919_2_alg».proof.Proof.Gen.Kernel.Skeleton
import proofs.«169564_j18090402250919_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the eight host operations. -/
abbrev V (c : Dev nD) (b : Ref sig .tc) : Buf (Elt F) ((c : Thread nD τ).loc b) :=
  StableHlo.after hostOps0 (fun b => m (c, b)) b

/-- None of the host operations allocates a buffer at contents of the machine's choosing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference none of the eight host operations writes is found by the region as launched. The operations write
    the two zero constants, their two broadcasts, the concatenation, its narrowing and the two reshapes. -/
theorem V_of_not_written (c : Dev nD) (b : Ref sig .tc)
    (h0 : b ≠ main_cst) (h1 : b ≠ main_v0) (h2 : b ≠ main_cst_0) (h3 : b ≠ main_v1) (h4 : b ≠ main_v2)
    (h5 : b ≠ main_v3) (h6 : b ≠ main_v4) (h7 : b ≠ main_v5) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.nary_writes,
      StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7⟩))

theorem V_main_arg0 (c : Dev nD) : V m c main_arg0 = m ((c : Thread nD τ).loc main_arg0) :=
  V_of_not_written m c _ (by decide) (by decide) (by decide) (by decide) (by decide) (by decide) (by decide) (by decide)
theorem V_main_arg1 (c : Dev nD) : V m c main_arg1 = m ((c : Thread nD τ).loc main_arg1) :=
  V_of_not_written m c _ (by decide) (by decide) (by decide) (by decide) (by decide) (by decide) (by decide) (by decide)
theorem V_main_arg2 (c : Dev nD) : V m c main_arg2 = m ((c : Thread nD τ).loc main_arg2) :=
  V_of_not_written m c _ (by decide) (by decide) (by decide) (by decide) (by decide) (by decide) (by decide) (by decide)
theorem V_main_arg3 (c : Dev nD) : V m c main_arg3 = m ((c : Thread nD τ).loc main_arg3) :=
  V_of_not_written m c _ (by decide) (by decide) (by decide) (by decide) (by decide) (by decide) (by decide) (by decide)
theorem V_main_arg4 (c : Dev nD) : V m c main_arg4 = m ((c : Thread nD τ).loc main_arg4) :=
  V_of_not_written m c _ (by decide) (by decide) (by decide) (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, fetched there or not (where it
    is not fetched the block index has not moved): for any proof data whose array is the region-entry contents and
    whose body leaves the block in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- From a run to the launch's post, for any proof data whose arrays are the region-entry contents: the activations
    are an input window's array, which the launch leaves at its entry contents; the four other arguments are staged
    by no window (the region reads their narrowed, reshaped copies), so they end as the region found them; and each
    is found as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses: every load and store takes its buffer whole -/

abbrev rAct : Rect S2000x1024 := Rect.unit (s := S2000x1024) ![0, 0] S2000x1024.size inb_S2000x1024_S2000x1024_0_0
abbrev rWgt : Rect S1024x512 := Rect.unit (s := S1024x512) ![0, 0] S1024x512.size inb_S1024x512_S1024x512_0_0
abbrev rBiasB : Rect S1x320 := Rect.unit (s := S1x320) ![0, 0] S1x320.size inb_S1x320_S1x320_0_0
abbrev rBiasI : Rect S1x1 := Rect.unit (s := S1x1) ![0, 0] S1x1.size inb_S1x1_S1x1_0_0
abbrev rDeltas : Rect S2000x320 := Rect.unit (s := S2000x320) ![0, 0] S2000x320.size inb_S2000x320_S2000x320_0_0
abbrev rIou : Rect S2000x1 := Rect.unit (s := S2000x1) ![0, 0] S2000x1.size inb_S2000x1_S2000x1_0_0

/-! ## What the body leaves in each output window's buffer -/

/-- The box-delta block after the body: its one store, of the sliced product plus the broadcast bias. -/
def out0_4 (x0 : Vec F S2000x1024 .f32) (x1 : Vec F S1024x512 .bf16) (x2 : Vec F S1x320 .f32) : Vec F S2000x320 .f32 :=
  View.canon [⟨rDeltas, k0_pay2 (View.ld x0 rAct) (View.ld x1 rWgt) (View.ld x2 rBiasB)⟩]

theorem cover0_4 (p0 : Vec F S2000x320 .f32) (y : S2000x320.Idx) :
    ∃ pc ∈ ([⟨rDeltas, p0⟩] : List (View.Piece (Elt F) S2000x320 .f32)), y ∈ pc.1.set :=
  View.cover_of_tiled [⟨rDeltas, p0⟩] S2000x320.size (by rfl) y

/-- The score block after the body: its one store, of the logistic of the product's column 384 plus the bias. -/
def out0_5 (x0 : Vec F S2000x1024 .f32) (x1 : Vec F S1024x512 .bf16) (x3 : Vec F S1x1 .f32) : Vec F S2000x1 .f32 :=
  View.canon [⟨rIou, k0_pay3 (View.ld x0 rAct) (View.ld x1 rWgt) (View.ld x3 rBiasI)⟩]

theorem cover0_5 (p0 : Vec F S2000x1 .f32) (y : S2000x1.Idx) :
    ∃ pc ∈ ([⟨rIou, p0⟩] : List (View.Piece (Elt F) S2000x1 .f32)), y ∈ pc.1.set :=
  View.cover_of_tiled [⟨rIou, p0⟩] S2000x1.size (by rfl) y

/-! ## The body's triple -/

set_option maxHeartbeats 1000000 in
/-- The body on whole staging memrefs, the inputs' at contents `x0 … x3` and the outputs' at anything, runs to a state
    holding the inputs' as they were and each output's at its stored value of the inputs'. -/
theorem sound_kernel (c : Dev nD) (E : Set ℕ) (i : grid0.Coords)
    (arg1 : Memref sig .tc .vmem S2000x1024 .f32) (harg1 : arg1.IsWhole) (arg2 : Memref sig .tc .vmem S1024x512 .bf16) (harg2 : arg2.IsWhole)
    (arg3 : Memref sig .tc .vmem S1x320 .f32) (harg3 : arg3.IsWhole) (arg4 : Memref sig .tc .vmem S1x1 .f32) (harg4 : arg4.IsWhole)
    (arg5 : Memref sig .tc .vmem S2000x320 .f32) (harg5 : arg5.IsWhole) (arg6 : Memref sig .tc .vmem S2000x1 .f32) (harg6 : arg6.IsWhole)
    (x0 : Vec F S2000x1024 .f32) (x1 : Vec F S1024x512 .bf16) (x2 : Vec F S1x320 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2) ∗ owns (c : Thread nD τ) arg6 fullShare (out0_5 x0 x1 x3)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The arrays as the region finds them; after the body at point `t` each input's buffer at its block and each
    output's at its stored value of the input blocks; the invariant is the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t)
    | ⟨5, _⟩ => out0_5 (iblk m c 0 t) (iblk m c 1 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) := by dsimp only [dats]
theorem after0_5 (c : Dev nD) (t : Fin cfg0.N) : (dats m 0 c).after 5 t = out0_5 (iblk m c 0 t) (iblk m c 1 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation on the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state
    each array of the pipeline holds what the write-backs of the proof data make of it and every other unscoped
    buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Frm

end
-- ==== Proof.KernelIdealFrame.lean ====
/-
  The frame of `KernelIdeal`: @main's eight host operations and then its one launch, a grid of 50 points.

  At each point the body loads four input blocks whole (2000 rows of the activations; the fused 1024 × 512 weight; the
  1 × 320 and 1 × 1 biases), and stores two output blocks whole (2000 × 320 and 2000 × 1), each a pure function of the
  loads. So after the body an output's staging buffer holds that function of the point's input blocks, an input's still
  holds its block, and the launch leaves every array outside the two results as the region found it; no host
  operation before the region writes an argument, so the arguments end as launched.
  Stated at any float instance `F`.
-/
import proofs.«169564_j18090402250919_2_alg».proof.Proof.Gen.KernelIdeal.Launch
import proofs.«169564_j18090402250919_2_alg».proof.Proof.Gen.KernelIdeal.Skeleton
import proofs.«169564_j18090402250919_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the eight host operations. -/
abbrev V (c : Dev nD) (b : Ref sig .tc) : Buf (Elt F) ((c : Thread nD τ).loc b) :=
  StableHlo.after hostOps0 (fun b => m (c, b)) b

/-- None of the host operations allocates a buffer at contents of the machine's choosing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference none of the eight host operations writes is found by the region as launched. The operations write
    the two zero constants, their two broadcasts, the concatenation, its narrowing and the two reshapes. -/
theorem V_of_not_written (c : Dev nD) (b : Ref sig .tc)
    (h0 : b ≠ main_cst) (h1 : b ≠ main_v0) (h2 : b ≠ main_cst_0) (h3 : b ≠ main_v1) (h4 : b ≠ main_v2)
    (h5 : b ≠ main_v3) (h6 : b ≠ main_v4) (h7 : b ≠ main_v5) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.nary_writes,
      StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7⟩))

theorem V_main_arg0 (c : Dev nD) : V m c main_arg0 = m ((c : Thread nD τ).loc main_arg0) :=
  V_of_not_written m c _ (by decide) (by decide) (by decide) (by decide) (by decide) (by decide) (by decide) (by decide)
theorem V_main_arg1 (c : Dev nD) : V m c main_arg1 = m ((c : Thread nD τ).loc main_arg1) :=
  V_of_not_written m c _ (by decide) (by decide) (by decide) (by decide) (by decide) (by decide) (by decide) (by decide)
theorem V_main_arg2 (c : Dev nD) : V m c main_arg2 = m ((c : Thread nD τ).loc main_arg2) :=
  V_of_not_written m c _ (by decide) (by decide) (by decide) (by decide) (by decide) (by decide) (by decide) (by decide)
theorem V_main_arg3 (c : Dev nD) : V m c main_arg3 = m ((c : Thread nD τ).loc main_arg3) :=
  V_of_not_written m c _ (by decide) (by decide) (by decide) (by decide) (by decide) (by decide) (by decide) (by decide)
theorem V_main_arg4 (c : Dev nD) : V m c main_arg4 = m ((c : Thread nD τ).loc main_arg4) :=
  V_of_not_written m c _ (by decide) (by decide) (by decide) (by decide) (by decide) (by decide) (by decide) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, fetched there or not (where it
    is not fetched the block index has not moved): for any proof data whose array is the region-entry contents and
    whose body leaves the block in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run -/

/-- From a run to the launch's post, for any proof data whose arrays are the region-entry contents: the activations
    are an input window's array, which the launch leaves at its entry contents; the four other arguments are staged
    by no window (the region reads their narrowed, reshaped copies), so they end as the region found them; and each
    is found as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses: every load and store takes its buffer whole -/

abbrev rAct : Rect S2000x1024 := Rect.unit (s := S2000x1024) ![0, 0] S2000x1024.size inb_S2000x1024_S2000x1024_0_0
abbrev rWgt : Rect S1024x512 := Rect.unit (s := S1024x512) ![0, 0] S1024x512.size inb_S1024x512_S1024x512_0_0
abbrev rBiasB : Rect S1x320 := Rect.unit (s := S1x320) ![0, 0] S1x320.size inb_S1x320_S1x320_0_0
abbrev rBiasI : Rect S1x1 := Rect.unit (s := S1x1) ![0, 0] S1x1.size inb_S1x1_S1x1_0_0
abbrev rDeltas : Rect S2000x320 := Rect.unit (s := S2000x320) ![0, 0] S2000x320.size inb_S2000x320_S2000x320_0_0
abbrev rIou : Rect S2000x1 := Rect.unit (s := S2000x1) ![0, 0] S2000x1.size inb_S2000x1_S2000x1_0_0

/-! ## What the body leaves in each output window's buffer -/

/-- The box-delta block after the body: its one store, of the sliced product plus the broadcast bias. -/
def out0_4 (x0 : Vec F S2000x1024 .f32) (x1 : Vec F S1024x512 .bf16) (x2 : Vec F S1x320 .f32) : Vec F S2000x320 .f32 :=
  View.canon [⟨rDeltas, k0_pay2 (View.ld x0 rAct) (View.ld x1 rWgt) (View.ld x2 rBiasB)⟩]

theorem cover0_4 (p0 : Vec F S2000x320 .f32) (y : S2000x320.Idx) :
    ∃ pc ∈ ([⟨rDeltas, p0⟩] : List (View.Piece (Elt F) S2000x320 .f32)), y ∈ pc.1.set :=
  View.cover_of_tiled [⟨rDeltas, p0⟩] S2000x320.size (by rfl) y

/-- The score block after the body: its one store, of the logistic of the product's column 384 plus the bias. -/
def out0_5 (x0 : Vec F S2000x1024 .f32) (x1 : Vec F S1024x512 .bf16) (x3 : Vec F S1x1 .f32) : Vec F S2000x1 .f32 :=
  View.canon [⟨rIou, k0_pay3 (View.ld x0 rAct) (View.ld x1 rWgt) (View.ld x3 rBiasI)⟩]

theorem cover0_5 (p0 : Vec F S2000x1 .f32) (y : S2000x1.Idx) :
    ∃ pc ∈ ([⟨rIou, p0⟩] : List (View.Piece (Elt F) S2000x1 .f32)), y ∈ pc.1.set :=
  View.cover_of_tiled [⟨rIou, p0⟩] S2000x1.size (by rfl) y

/-! ## The body's triple -/

set_option maxHeartbeats 1000000 in
/-- The body on whole staging memrefs, the inputs' at contents `x0 … x3` and the outputs' at anything, runs to a state
    holding the inputs' as they were and each output's at its stored value of the inputs'. -/
theorem sound_kernel (c : Dev nD) (E : Set ℕ) (i : grid0.Coords)
    (arg1 : Memref sig .tc .vmem S2000x1024 .f32) (harg1 : arg1.IsWhole) (arg2 : Memref sig .tc .vmem S1024x512 .bf16) (harg2 : arg2.IsWhole)
    (arg3 : Memref sig .tc .vmem S1x320 .f32) (harg3 : arg3.IsWhole) (arg4 : Memref sig .tc .vmem S1x1 .f32) (harg4 : arg4.IsWhole)
    (arg5 : Memref sig .tc .vmem S2000x320 .f32) (harg5 : arg5.IsWhole) (arg6 : Memref sig .tc .vmem S2000x1 .f32) (harg6 : arg6.IsWhole)
    (x0 : Vec F S2000x1024 .f32) (x1 : Vec F S1024x512 .bf16) (x2 : Vec F S1x320 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2) ∗ owns (c : Thread nD τ) arg6 fullShare (out0_5 x0 x1 x3)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The arrays as the region finds them; after the body at point `t` each input's buffer at its block and each
    output's at its stored value of the input blocks; the invariant is the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t)
    | ⟨5, _⟩ => out0_5 (iblk m c 0 t) (iblk m c 1 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) := by dsimp only [dats]
theorem after0_5 (c : Dev nD) (t : Fin cfg0.N) : (dats m 0 c).after 5 t = out0_5 (iblk m c 0 t) (iblk m c 1 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch's obligation on the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state
    each array of the pipeline holds what the write-backs of the proof data make of it and every other unscoped
    buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Frm

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.KernelPay.lean ====
/-
  The idealized kernel's arithmetic at one grid point, read entry by entry on the extended reals.

  The body multiplies its 2000 × 1024 block of activations by the fused 1024 × 512 weight into a zero accumulator: entry
  (r, j) of that product is the sum over the 1024 features of x[r, k] · W[k, j] (narrowing to bf16 is the identity here).
  The box deltas are columns 0 … 319 of the product plus the 1 × 320 bias broadcast down the rows; the score is the
  logistic of column 384 plus the 1 × 1 bias.
  The fused weight is the concatenation, along the columns, of the box weight (320 columns), 64 zero columns, the score
  weight (one column) and 127 zero columns: its column j < 320 is the box weight's column j, and its column 384 = 320 + 64
  is the score weight's only column.
-/
import proofs.«169564_j18090402250919_2_alg».proof.Proof.Gen.KernelIdeal.Skeleton
import proofs.«169564_j18090402250919_2_alg».proof.Proof.LibDot
import Idealize.ShloMosaic.Lib.Pipeline.Value
import Idealize.ShloMosaic.Lib.ValueLayout
import Idealize.ShloMosaic.Lib.ValueIdx

noncomputable section

open scoped BigOperators

namespace Cert.KernelIdeal.Pay

open Cert.KernelIdeal Cert.KernelIdeal.Gen Idealize.ShloMosaic Idealize.ShloMosaic.ValueIdx

/-! ## The product -/

/-- Entry (r, j) of the block's product with the fused weight. -/
theorem prod_apply (x0 : Vec Ideal S2000x1024 .f32) (x1 : Vec Ideal S1024x512 .bf16) (r : Fin 2000) (j : Fin 512) :
    k0_pay1 (F := Ideal) x0 x1 (ix2 r j) = ∑ k : Fin 1024, x0 (ix2 r k) * x1 (ix2 k j) := by
  unfold k0_pay1
  rw [shapeCast_self]
  exact Cert.LibDot.matmul_10_zero_apply dot_S2000x1024_S1024x512_S2000x512_1_0_0_1_n_n rfl rfl rfl rfl rfl rfl none
    (truncf .bf16 x0 bitsLt_bf16_f32) x1 r j

/-! ## The two stored values -/

/-- A box delta of the block: the product's entry in the same column, plus that column's bias. -/
theorem deltas_pay_apply (x0 : Vec Ideal S2000x1024 .f32) (x1 : Vec Ideal S1024x512 .bf16) (x2 : Vec Ideal S1x320 .f32)
    (r : Fin 2000) (j : Fin 320) :
    k0_pay2 (F := Ideal) x0 x1 x2 (ix2 r j)
      = (∑ k : Fin 1024, x0 (ix2 r k) * x1 (ix2 k (⟨j.val, by have := j.isLt; omega⟩ : Fin 512))) + x2 (ix2 (0 : Fin 1) j) := by
  unfold k0_pay2
  rw [addf_apply, shapeCast_self, broadcastTo_1b_ab_apply,
    extractStridedSlice_apply ![0, 0] (k0_pay1 (F := Ideal) x0 x1) slices_S2000x512_o0_0_S2000x320 (ix2 r j)
      (ix2 r (⟨j.val, by have := j.isLt; omega⟩ : Fin 512)) (fun a => by
        match a with
        | ⟨0, _⟩ => exact (Nat.zero_add _).symm
        | ⟨1, _⟩ => exact (Nat.zero_add _).symm),
    prod_apply]

/-- A score of the block: the logistic of the product's entry in column 384 plus the bias. -/
theorem score_pay_apply (x0 : Vec Ideal S2000x1024 .f32) (x1 : Vec Ideal S1024x512 .bf16) (x3 : Vec Ideal S1x1 .f32)
    (r : Fin 2000) :
    k0_pay3 (F := Ideal) x0 x1 x3 (ix2 r (0 : Fin 1))
      = Ideal.logistic ((∑ k : Fin 1024, x0 (ix2 r k) * x1 (ix2 k (⟨384, by decide⟩ : Fin 512))) + x3 (ix2 (0 : Fin 1) (0 : Fin 1))) := by
  unfold k0_pay3
  have e : ∀ (v : FVec Ideal S2000x1 .f32) (i : S2000x1.Idx), logistic v i = Ideal.logistic (v i) := fun _ _ => rfl
  rw [e, addf_apply, shapeCast_self, broadcastTo_1b_ab_apply,
    extractStridedSlice_apply ![0, 384] (k0_pay1 (F := Ideal) x0 x1) slices_S2000x512_o0_384_S2000x1 (ix2 r (0 : Fin 1))
      (ix2 r (⟨384, by decide⟩ : Fin 512)) (fun a => by
        match a with
        | ⟨0, _⟩ => exact (Nat.zero_add _).symm
        | ⟨1, _⟩ => rfl),
    prod_apply]

/-! ## The fused weight -/

/-- The two weights side by side with zero columns between and after, narrowed to bf16: what the host operations
    before the launch make of the box weight `w1` and the score weight `w3`. -/
def fusedW (w1 : FVec Ideal S1024x320 .f32) (w3 : FVec Ideal S1024x1 .f32) : FVec Ideal S1024x512 .bf16 :=
  truncf .bf16 (concatenate S1024x512 1
    [⟨S1024x320, w1⟩,
     ⟨S1024x64, broadcastInDim S1024x64 ![] bcast_S_S1024x64 (constant (F := Ideal) S_ .f32 0x00000000#32)⟩,
     ⟨S1024x1, w3⟩,
     ⟨S1024x127, broadcastInDim S1024x127 ![] bcast_S_S1024x127 (constant (F := Ideal) S_ .f32 0x00000000#32)⟩]
    concatenates_S1024x320_S1024x64_S1024x1_S1024x127_S1024x512_d1) bitsLt_bf16_f32

/-- Column j < 320 of the fused weight is the box weight's column j. -/
theorem fusedW_box (w1 : FVec Ideal S1024x320 .f32) (w3 : FVec Ideal S1024x1 .f32) (k : Fin 1024) (j : Fin 320) :
    fusedW w1 w3 (ix2 k (⟨j.val, by have := j.isLt; omega⟩ : Fin 512)) = w1 (ix2 k j) := by
  unfold fusedW
  rw [truncf_apply]
  refine concatenate_apply_piece (t := S1024x512) (1 : Fin 2) _ _ _ 0 ?_ S1024x320 w1 ?_ rfl 0 ?_ (ix2 k j) (fun b hb => ?_) ?_
  · show 0 < 4; omega
  · rfl
  · rfl
  · match b with
    | ⟨0, _⟩ => rfl
    | ⟨1, _⟩ => exact absurd rfl hb
  · exact Nat.zero_add _

/-- Column 384 of the fused weight is the score weight's column. -/
theorem fusedW_score (w1 : FVec Ideal S1024x320 .f32) (w3 : FVec Ideal S1024x1 .f32) (k : Fin 1024) :
    fusedW w1 w3 (ix2 k (⟨384, by decide⟩ : Fin 512)) = w3 (ix2 k (0 : Fin 1)) := by
  unfold fusedW
  rw [truncf_apply]
  refine concatenate_apply_piece (t := S1024x512) (1 : Fin 2) _ _ _ 2 ?_ S1024x1 w3 ?_ rfl 384 ?_ (ix2 k (0 : Fin 1)) (fun b hb => ?_) ?_
  · show 2 < 4; omega
  · rfl
  · rfl
  · match b with
    | ⟨0, _⟩ => rfl
    | ⟨1, _⟩ => exact absurd rfl hb
  · rfl

end Cert.KernelIdeal.Pay

end
-- ==== Proof.Spec.lean ====
/-
  What both programs compute, index by index, on the extended reals.

  With `x` the 100000 × 1024 activations, `Wb` (1024 × 320) and `bb` (320) the box head, `Wi` (1024 × 1) and `bi` (1)
  the score head:
    deltas[r, j] = (∑ k, x[r, k] · Wb[k, j]) + bb[j]
    score[r, 0]  = logistic ((∑ k, x[r, k] · Wi[k, 0]) + bi[0]),   logistic z = 1 / (1 + e^(-z)).
  The kernel multiplies `x` once against the two weights laid side by side in a 1024 × 512 matrix (columns 0 … 319 the box
  weight, column 384 the score weight, the rest zero) and reads the two heads back out of the product's columns; the
  reference multiplies twice. Entry (r, j) of a product depends on column j of the right factor alone, so the two agree
  entry by entry, with no rearrangement of any sum: nothing here needs the entries to be finite.
-/
import Idealize.ShloMosaic.Lib.ValueIdx
import Idealize.ShloMosaic.PureOps.Ideal.Laws

noncomputable section

open scoped BigOperators

namespace Cert.Spec

open Idealize.ShloMosaic Idealize.ShloMosaic.ValueIdx

/-- Row `r` of the activations against column `j` of a weight with `N` columns: the sum over the 1024 features. -/
def rowDot {N : Nat} (x : FVec Ideal ⟨2, ![100000, 1024]⟩ .f32) (w : FVec Ideal ⟨2, ![1024, N]⟩ .f32)
    (r : Fin 100000) (j : Fin N) : EReal :=
  ∑ k : Fin 1024, x (ix2 r k) * w (ix2 k j)

/-- A box delta: the product's entry plus the column's bias. -/
def deltasAt (x : FVec Ideal ⟨2, ![100000, 1024]⟩ .f32) (wb : FVec Ideal ⟨2, ![1024, 320]⟩ .f32)
    (bb : FVec Ideal ⟨1, ![320]⟩ .f32) (r : Fin 100000) (j : Fin 320) : EReal :=
  rowDot x wb r j + bb (ix1 j)

/-- A score: the logistic of the product's entry plus the bias. -/
def scoreAt (x : FVec Ideal ⟨2, ![100000, 1024]⟩ .f32) (wi : FVec Ideal ⟨2, ![1024, 1]⟩ .f32)
    (bi : FVec Ideal ⟨1, ![1]⟩ .f32) (r : Fin 100000) : EReal :=
  Ideal.logistic (rowDot x wi r 0 + bi (ix1 0))

/-- The box deltas as an array. -/
def deltas (x : FVec Ideal ⟨2, ![100000, 1024]⟩ .f32) (wb : FVec Ideal ⟨2, ![1024, 320]⟩ .f32)
    (bb : FVec Ideal ⟨1, ![320]⟩ .f32) : FVec Ideal ⟨2, ![100000, 320]⟩ .f32 :=
  fun i => deltasAt x wb bb ⟨(i 0).val, (i 0).isLt⟩ ⟨(i 1).val, (i 1).isLt⟩

/-- The scores as an array. -/
def score (x : FVec Ideal ⟨2, ![100000, 1024]⟩ .f32) (wi : FVec Ideal ⟨2, ![1024, 1]⟩ .f32)
    (bi : FVec Ideal ⟨1, ![1]⟩ .f32) : FVec Ideal ⟨2, ![100000, 1]⟩ .f32 :=
  fun i => scoreAt x wi bi ⟨(i 0).val, (i 0).isLt⟩

theorem deltas_apply (x : FVec Ideal ⟨2, ![100000, 1024]⟩ .f32) (wb : FVec Ideal ⟨2, ![1024, 320]⟩ .f32)
    (bb : FVec Ideal ⟨1, ![320]⟩ .f32) (r : Fin 100000) (j : Fin 320) :
    deltas x wb bb (ix2 r j) = deltasAt x wb bb r j := rfl

theorem score_apply (x : FVec Ideal ⟨2, ![100000, 1024]⟩ .f32) (wi : FVec Ideal ⟨2, ![1024, 1]⟩ .f32)
    (bi : FVec Ideal ⟨1, ![1]⟩ .f32) (r : Fin 100000) (z : Fin 1) :
    score x wi bi (ix2 r z) = scoreAt x wi bi r := rfl

/-- The f32 pattern of the number one. -/
theorem ofBits_one_f32 : Ideal.ofBits .f32 0x3F800000#32 = 1 := by
  simp [Ideal.ofBits, Ideal.ieee, -EReal.coe_mul]; norm_num

end Cert.Spec

end
-- ==== Proof.KernelIdealValue.lean ====
/-
  What the idealized kernel's two result arrays hold after the run: the specification's box deltas and scores of the
  argument arrays.

  Grid point t handles rows 2000·t … 2000·t + 1999. Its activation block is those rows of the activations; its weight
  block is the whole fused weight, whose column j < 320 is the box weight's column j and whose column 384 is the score
  weight's column; its bias blocks are the two biases with a unit axis in front. So entry (r, j) of what the point
  writes back to the box deltas is (∑ k, x[2000·t + r, k] · Wb[k, j]) + bb[j], and entry (r, 0) of what it writes back
  to the scores is logistic ((∑ k, x[2000·t + r, k] · Wi[k, 0]) + bi[0]): blocks of the specification's arrays. Every
  row lies in the block of point (row / 2000), so the 50 blocks cover each result array.
-/
import proofs.«169564_j18090402250919_2_alg».proof.Proof.KernelIdealFrame
import proofs.«169564_j18090402250919_2_alg».proof.Proof.KernelPay
import proofs.«169564_j18090402250919_2_alg».proof.Proof.Spec
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open scoped BigOperators

namespace Cert.KernelIdeal.Val

open Cert.KernelIdeal Cert.KernelIdeal.Gen Cert.KernelIdeal.Frm Cert.KernelIdeal.Pay
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The block indices over the grid -/

/-- The activations' and the two results' blocks move down one block of rows per point; the weight's and the
    biases' blocks stay at the origin. Decided over the 50 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 50 := lt_of_lt_of_eq t.isLt N_0

/-- The row of the arrays that row `r` of point `t`'s blocks is. -/
def rowOf (t : Fin cfg0.N) (r : Fin 2000) : Fin 100000 :=
  ⟨2000 * t.val + r.val, by have := t_lt t; have := r.isLt; omega⟩

/-! ## The arrays the region stages, as the host operations leave them -/

/-- The weight the region stages is the fused weight of the two weight arguments. -/
theorem V_fused (c : Dev nD) :
    (V m c main_v3 : S1024x512.Idx → EReal)
      = fusedW (m ((c : Thread nD τ).loc main_arg1)) (m ((c : Thread nD τ).loc main_arg3)) := by
  dsimp only [V, hostOps0]; after_results; rfl

/-- The box bias the region stages is the box bias argument with a unit axis in front. -/
theorem V_biasB (c : Dev nD) :
    (V m c main_v4 : S1x320.Idx → EReal) = shapeCast S1x320 (m ((c : Thread nD τ).loc main_arg2)) shapeCasts_S320_S1x320 := by
  dsimp only [V, hostOps0]; after_results; rfl

/-- The score bias the region stages is the score bias argument with a unit axis in front. -/
theorem V_biasI (c : Dev nD) :
    (V m c main_v5 : S1x1.Idx → EReal) = shapeCast S1x1 (m ((c : Thread nD τ).loc main_arg4)) shapeCasts_S1_S1x1 := by
  dsimp only [V, hostOps0]; after_results; rfl

/-! ## The input blocks at a point, entry by entry -/

abbrev xblk (c : Dev nD) (t : Fin cfg0.N) : Vec Ideal S2000x1024 .f32 := iblk m c 0 t
abbrev wblk (c : Dev nD) (t : Fin cfg0.N) : Vec Ideal S1024x512 .bf16 := iblk m c 1 t
abbrev bblk (c : Dev nD) (t : Fin cfg0.N) : Vec Ideal S1x320 .f32 := iblk m c 2 t
abbrev sblk (c : Dev nD) (t : Fin cfg0.N) : Vec Ideal S1x1 .f32 := iblk m c 3 t

/-- Row r of point t's activation block is row 2000·t + r of the activations. -/
theorem xblk_apply (c : Dev nD) (t : Fin cfg0.N) (r : Fin 2000) (k : Fin 1024) :
    xblk m c t (ix2 r k) = (m ((c : Thread nD τ).loc main_arg0) : S100000x1024.Idx → EReal) (ix2 (rowOf t r) k) := by
  obtain ⟨e0, e1, -⟩ := idx_facts t
  show V m c main_arg0 (((cfg0.win 0).blk t).view.emb (ix2 r k)) = _
  rw [V_main_arg0]
  congr 1
  funext a
  apply Fin.ext
  match a with
  | ⟨0, _⟩ => show win0_0.index t (0 : Fin 2) * 2000 + 1 * r.val = 2000 * t.val + r.val; omega
  | ⟨1, _⟩ => show win0_0.index t (1 : Fin 2) * 1024 + 1 * k.val = k.val; omega

/-- The weight block at every point is the fused weight. -/
theorem wblk_apply (c : Dev nD) (t : Fin cfg0.N) (k : Fin 1024) (j : Fin 512) :
    wblk m c t (ix2 k j) = fusedW (m ((c : Thread nD τ).loc main_arg1)) (m ((c : Thread nD τ).loc main_arg3)) (ix2 k j) := by
  obtain ⟨-, -, e0, e1, -⟩ := idx_facts t
  show V m c main_v3 (((cfg0.win 1).blk t).view.emb (ix2 k j)) = _
  rw [V_fused]
  congr 1
  funext a
  apply Fin.ext
  match a with
  | ⟨0, _⟩ => show win0_1.index t (0 : Fin 2) * 1024 + 1 * k.val = k.val; omega
  | ⟨1, _⟩ => show win0_1.index t (1 : Fin 2) * 512 + 1 * j.val = j.val; omega

/-- The box bias block at every point reads the box bias argument. -/
theorem bblk_apply (c : Dev nD) (t : Fin cfg0.N) (j : Fin 320) :
    bblk m c t (ix2 (0 : Fin 1) j) = (m ((c : Thread nD τ).loc main_arg2) : S320.Idx → EReal) (ix1 j) := by
  obtain ⟨-, -, -, -, e0, e1, -⟩ := idx_facts t
  show V m c main_v4 (((cfg0.win 2).blk t).view.emb (ix2 (0 : Fin 1) j)) = _
  rw [V_biasB, ← shapeCast_a_1a_apply (m ((c : Thread nD τ).loc main_arg2)) shapeCasts_S320_S1x320 (0 : Fin 1) j]
  congr 1
  funext a
  apply Fin.ext
  match a with
  | ⟨0, _⟩ => show win0_2.index t (0 : Fin 2) * 1 + 1 * 0 = 0; omega
  | ⟨1, _⟩ => show win0_2.index t (1 : Fin 2) * 320 + 1 * j.val = j.val; omega

/-- The score bias block at every point reads the score bias argument. -/
theorem sblk_apply (c : Dev nD) (t : Fin cfg0.N) :
    sblk m c t (ix2 (0 : Fin 1) (0 : Fin 1)) = (m ((c : Thread nD τ).loc main_arg4) : S1.Idx → EReal) (ix1 (0 : Fin 1)) := by
  obtain ⟨-, -, -, -, -, -, e0, e1, -⟩ := idx_facts t
  show V m c main_v5 (((cfg0.win 3).blk t).view.emb (ix2 (0 : Fin 1) (0 : Fin 1))) = _
  rw [V_biasI, ← shapeCast_a_1a_apply (m ((c : Thread nD τ).loc main_arg4)) shapeCasts_S1_S1x1 (0 : Fin 1) (0 : Fin 1)]
  congr 1
  funext a
  apply Fin.ext
  match a with
  | ⟨0, _⟩ => show win0_3.index t (0 : Fin 2) * 1 + 1 * 0 = 0; omega
  | ⟨1, _⟩ => show win0_3.index t (1 : Fin 2) * 1 + 1 * 0 = 0; omega

/-! ## The specification of the argument arrays -/

/-- The box deltas of the launch's arguments. -/
abbrev specDeltas (c : Dev nD) : S100000x320.Idx → EReal :=
  Cert.Spec.deltas (m ((c : Thread nD τ).loc main_arg0)) (m ((c : Thread nD τ).loc main_arg1)) (m ((c : Thread nD τ).loc main_arg2))

/-- The scores of the launch's arguments. -/
abbrev specScore (c : Dev nD) : S100000x1.Idx → EReal :=
  Cert.Spec.score (m ((c : Thread nD τ).loc main_arg0)) (m ((c : Thread nD τ).loc main_arg3)) (m ((c : Thread nD τ).loc main_arg4))

theorem specDeltas_apply (c : Dev nD) (r : Fin 100000) (j : Fin 320) :
    specDeltas m c (ix2 r j) = Cert.Spec.deltasAt (m ((c : Thread nD τ).loc main_arg0)) (m ((c : Thread nD τ).loc main_arg1))
      (m ((c : Thread nD τ).loc main_arg2)) r j := rfl

theorem specScore_apply (c : Dev nD) (r : Fin 100000) (z : Fin 1) :
    specScore m c (ix2 r z) = Cert.Spec.scoreAt (m ((c : Thread nD τ).loc main_arg0)) (m ((c : Thread nD τ).loc main_arg3))
      (m ((c : Thread nD τ).loc main_arg4)) r := rfl

/-! ## What a point writes back -/

/-- Point t writes back, to the box deltas, its block of the specification's. -/
theorem flushed4_eq (c : Dev nD) (t : Fin cfg0.N) :
    (dats m 0 c).flushed 4 t = ((cfg0.win 4).blk t).view.read (Elt Ideal) (specDeltas m c) := by
  obtain ⟨-, -, -, -, -, -, -, -, e0, e1, -⟩ := idx_facts t
  show (cfg0.win 4).cut (grid0.coords t) ((dats m 0 c).after 4 t) = _
  rw [after0_4]
  unfold out0_4
  rw [View.canon_unit_zero hz]
  simp only [View.ld_unit_zero (S := S2000x1024) hz, View.ld_unit_zero (S := S1024x512) hz, View.ld_unit_zero (S := S1x320) hz]
  funext y
  obtain ⟨r, j, rfl⟩ : ∃ (r : Fin 2000) (j : Fin 320), y = ix2 r j := ⟨y 0, y 1, eq_ix2 y⟩
  show k0_pay2 (F := Ideal) (xblk m c t) (wblk m c t) (bblk m c t) (ix2 r j) = specDeltas m c (((cfg0.win 4).blk t).view.emb (ix2 r j))
  have hemb : ((cfg0.win 4).blk t).view.emb (ix2 r j) = ix2 (rowOf t r) j := by
    funext a
    apply Fin.ext
    match a with
    | ⟨0, _⟩ => show win0_4.index t (0 : Fin 2) * 2000 + 1 * r.val = 2000 * t.val + r.val; omega
    | ⟨1, _⟩ => show win0_4.index t (1 : Fin 2) * 320 + 1 * j.val = j.val; omega
  rw [hemb, deltas_pay_apply, specDeltas_apply, bblk_apply]
  unfold Cert.Spec.deltasAt Cert.Spec.rowDot
  simp only [xblk_apply, wblk_apply, fusedW_box]

/-- Point t writes back, to the scores, its block of the specification's. -/
theorem flushed5_eq (c : Dev nD) (t : Fin cfg0.N) :
    (dats m 0 c).flushed 5 t = ((cfg0.win 5).blk t).view.read (Elt Ideal) (specScore m c) := by
  obtain ⟨-, -, -, -, -, -, -, -, -, -, e0, e1⟩ := idx_facts t
  show (cfg0.win 5).cut (grid0.coords t) ((dats m 0 c).after 5 t) = _
  rw [after0_5]
  unfold out0_5
  rw [View.canon_unit_zero hz]
  simp only [View.ld_unit_zero (S := S2000x1024) hz, View.ld_unit_zero (S := S1024x512) hz, View.ld_unit_zero (S := S1x1) hz]
  funext y
  obtain ⟨r, z, rfl⟩ : ∃ (r : Fin 2000) (z : Fin 1), y = ix2 r z := ⟨y 0, y 1, eq_ix2 y⟩
  obtain rfl : z = 0 := Subsingleton.elim _ _
  show k0_pay3 (F := Ideal) (xblk m c t) (wblk m c t) (sblk m c t) (ix2 r (0 : Fin 1)) = specScore m c (((cfg0.win 5).blk t).view.emb (ix2 r (0 : Fin 1)))
  have hemb : ((cfg0.win 5).blk t).view.emb (ix2 r (0 : Fin 1)) = ix2 (rowOf t r) (0 : Fin 1) := by
    funext a
    apply Fin.ext
    match a with
    | ⟨0, _⟩ => show win0_5.index t (0 : Fin 2) * 2000 + 1 * r.val = 2000 * t.val + r.val; omega
    | ⟨1, _⟩ => show win0_5.index t (1 : Fin 2) * 1 + 1 * 0 = 0; omega
  rw [hemb, score_pay_apply, specScore_apply, sblk_apply]
  unfold Cert.Spec.scoreAt Cert.Spec.rowDot
  simp only [xblk_apply, wblk_apply, fusedW_score]

/-! ## The blocks cover the arrays -/

theorem mem_blk4 (t : Fin cfg0.N) (i : S100000x320.Idx) :
    i ∈ ((cfg0.win 4).blk t).view.set ↔ ∀ a : Fin 2, win0_4.index t a * S2000x320.size a ≤ (i a).val ∧ (i a).val < win0_4.index t a * S2000x320.size a + S2000x320.size a := by
  show i ∈ ((View.whole main_v6_0).slice (win0_4.rect t)).set ↔ _
  rw [View.set_slice_whole, Rect.mem_set_unit]
  exact Iff.rfl

theorem mem_blk5 (t : Fin cfg0.N) (i : S100000x1.Idx) :
    i ∈ ((cfg0.win 5).blk t).view.set ↔ ∀ a : Fin 2, win0_5.index t a * S2000x1.size a ≤ (i a).val ∧ (i a).val < win0_5.index t a * S2000x1.size a + S2000x1.size a := by
  show i ∈ ((View.whole main_v6_1).slice (win0_5.rect t)).set ↔ _
  rw [View.set_slice_whole, Rect.mem_set_unit]
  exact Iff.rfl

/-- Every entry of the box deltas is in the block of the point its row falls to. -/
theorem cover4 (i : S100000x320.Idx) :
    ∃ t : Fin cfg0.N, (cfg0.win 4).flush t = true ∧ i ∈ ((cfg0.win 4).blk t).view.set := by
  have hi0 : (i 0).val < 100000 := (i 0).isLt
  have hi1 : (i 1).val < 320 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, -, e0, e1, -⟩ := idx_facts t
  refine ⟨t, flush0_4 t, ?_⟩
  rw [mem_blk4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 320 ≤ (i 1).val ∧ (i 1).val < win0_4.index t (1 : Fin 2) * 320 + 320; omega

/-- Every entry of the scores is in the block of the point its row falls to. -/
theorem cover5 (i : S100000x1.Idx) :
    ∃ t : Fin cfg0.N, (cfg0.win 5).flush t = true ∧ i ∈ ((cfg0.win 5).blk t).view.set := by
  have hi0 : (i 0).val < 100000 := (i 0).isLt
  have hi1 : (i 1).val < 1 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, -, -, -, e0, e1⟩ := idx_facts t
  refine ⟨t, flush0_5 t, ?_⟩
  rw [mem_blk5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 1 ≤ (i 1).val ∧ (i 1).val < win0_5.index t (1 : Fin 2) * 1 + 1; omega

/-! ## The arrays after the run -/

theorem final4 (c : Dev nD) : (dats m 0 c).arrAt 4 cfg0.N = specDeltas m c :=
  (dats m 0 c).arrAt_eq_of_cover 4 (specDeltas m c) (fun t _ => flushed4_eq m c t) cover4

theorem final5 (c : Dev nD) : (dats m 0 c).arrAt 5 cfg0.N = specScore m c :=
  (dats m 0 c).arrAt_eq_of_cover 5 (specScore m c) (fun t _ => flushed5_eq m c t) cover5

/-- The run of the idealized kernel: both results at the specification of the arguments, the arguments unchanged. -/
theorem run : θ_run defs (onTc (τ := τ) (main (F := Ideal))) ⟨m, fun _ => 0, ρ⟩ fun r => ∀ c : Dev nD,
      r.2.mem ((c.tc : Thread nD τ).loc main_v6_0) = specDeltas m c
      ∧ r.2.mem ((c.tc : Thread nD τ).loc main_v6_1) = specScore m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 4).trans (final4 m c), ((h c).1 5).trans (final5 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Val

end
-- ==== Proof.RefRead.lean ====
/-
  The reference program's run, read one operation at a time: the generated run of the reference and its
  read-at-an-index lemmas, gathered under one import for the modules that compare the two sides.
-/
import proofs.«169564_j18090402250919_2_alg».proof.Proof.Gen.ReferenceIdeal.Run
import proofs.«169564_j18090402250919_2_alg».proof.Proof.Gen.ReferenceIdeal.Read
-- ==== Proof.RefSpec.lean ====
/-
  The reference computes the specification.

  Its first result is the host's matrix product of the activations with the box weight, read at an entry as the sum
  over the 1024 features, plus the bias broadcast along the rows. Its second is 1 / (1 + exp (-z)) with z the product
  with the score weight plus the one bias: that expression is the logistic function's definition on the extended reals.
-/
import proofs.«169564_j18090402250919_2_alg».proof.Proof.RefRead
import proofs.«169564_j18090402250919_2_alg».proof.Proof.Spec

noncomputable section

open scoped BigOperators

namespace Cert.RefSpec

open Cert.ReferenceIdeal Cert.ReferenceIdeal.Read Idealize.ShloMosaic Idealize.ShloMosaic.ValueIdx

/-- The reference's box deltas are the specification's. -/
theorem deltas_eq (x0 : FVec Ideal S100000x1024 .f32) (x1 : FVec Ideal S1024x320 .f32) (x2 : FVec Ideal S320 .f32) :
    val_main_v3 (F := Ideal) x0 x1 x2 = Cert.Spec.deltas x0 x1 x2 := by
  funext i
  have el : ∀ k : Fin 1024, lidx_main_v0 i k = ix2 (⟨(i 0).val, (i 0).isLt⟩ : Fin 100000) k := fun k =>
    funext fun a => Fin.ext (by match a with | ⟨0, _⟩ => rfl | ⟨1, _⟩ => rfl)
  have er : ∀ k : Fin 1024, ridx_main_v0 i k = ix2 k (⟨(i 1).val, (i 1).isLt⟩ : Fin 320) := fun k =>
    funext fun a => Fin.ext (by match a with | ⟨0, _⟩ => rfl | ⟨1, _⟩ => rfl)
  have eb : idx_main_v1 (idx_main_v2 i) = ix1 (⟨(i 1).val, (i 1).isLt⟩ : Fin 320) :=
    funext fun a => Fin.ext (by match a with | ⟨0, _⟩ => rfl)
  rw [val_main_v3_apply, val_main_v0_apply, val_main_v2_apply, val_main_v1_apply]
  simp only [el, er, eb]
  rfl

/-- The reference's scores are the specification's. -/
theorem score_eq (x0 : FVec Ideal S100000x1024 .f32) (x3 : FVec Ideal S1024x1 .f32) (x4 : FVec Ideal S1 .f32) :
    val_main_v13 (F := Ideal) x0 x3 x4 = Cert.Spec.score x0 x3 x4 := by
  funext i
  have h1 : (i 1).val = 0 := Nat.lt_one_iff.mp (i 1).isLt
  have el : ∀ k : Fin 1024, lidx_main_v4 i k = ix2 (⟨(i 0).val, (i 0).isLt⟩ : Fin 100000) k := fun k =>
    funext fun a => Fin.ext (by match a with | ⟨0, _⟩ => rfl | ⟨1, _⟩ => rfl)
  have er : ∀ k : Fin 1024, ridx_main_v4 i k = ix2 k (0 : Fin 1) := fun k =>
    funext fun a => Fin.ext (by match a with | ⟨0, _⟩ => rfl | ⟨1, _⟩ => exact h1)
  have eb : idx_main_v5 (idx_main_v6 i) = ix1 (0 : Fin 1) :=
    funext fun a => Fin.ext (by match a with | ⟨0, _⟩ => rfl)
  rw [val_main_v13_apply, val_main_v12_apply, val_main_cst_0_apply, val_main_v11_apply, val_main_v10_apply,
    val_main_cst_apply, val_main_v9_apply, val_main_v8_apply, val_main_v7_apply, val_main_v4_apply,
    val_main_v6_apply, val_main_v5_apply]
  simp only [el, er, eb, Ideal.ofBits_def, Cert.Spec.ofBits_one_f32, Ideal.hostDivf_def, Ideal.addf_def,
    Ideal.hostUnary_exp_def, Ideal.hostNegf_def, Ideal.negf_def]
  rfl

end Cert.RefSpec

end
-- ==== Proof.lean ====
/-
  A fused two-head linear layer against its two-product reference, over the extended reals.

  The kernel runs a grid of 50 row blocks; at each it multiplies 2000 rows of the activations by ONE 1024 × 512 weight
  that holds the box weight in columns 0 … 319 and the score weight in column 384 (zeros elsewhere), adds the box bias to
  columns 0 … 319 of the product, and takes the logistic of column 384 plus the score bias. The reference computes
  x · Wb + bb and 1 / (1 + exp (-(x · Wi + bi))) with two products. Entry (r, j) of a matrix product is the sum over
  the features of x[r, k] · W[k, j] and so depends on column j of W alone: both programs compute, entry by entry,
    deltas[r, j] = (∑ k, x[r, k] · Wb[k, j]) + bb[j]      score[r, 0] = logistic ((∑ k, x[r, k] · Wi[k, 0]) + bi[0]),
  the same sums in the same order, with 1 / (1 + exp (-z)) being the logistic function's definition. No step uses that
  the inputs are finite.

  The frames: each kernel program's host operations write only their own results, and its launch leaves every buffer
  but the two results as it found it; the reference is a straight line of host operations.
  `KernelIdeal` is `Kernel`'s text read at the exact instance with no rewrite applied, so nothing is owed for it.
-/
import proofs.«169564_j18090402250919_2_alg».proof.Defs
import proofs.«169564_j18090402250919_2_alg».proof.Proof.Gen.Kernel
import proofs.«169564_j18090402250919_2_alg».proof.Proof.Gen.KernelIdeal
import proofs.«169564_j18090402250919_2_alg».proof.Proof.Gen.ReferenceIdeal
import proofs.«169564_j18090402250919_2_alg».proof.Proof.Gen.Pre_finite_inputs
import proofs.«169564_j18090402250919_2_alg».proof.Proof.KernelFrame
import proofs.«169564_j18090402250919_2_alg».proof.Proof.KernelIdealFrame
import proofs.«169564_j18090402250919_2_alg».proof.Proof.KernelIdealValue
import proofs.«169564_j18090402250919_2_alg».proof.Proof.RefSpec
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Frm.frame m ρ

/-- So does the idealized kernel. -/
theorem frame_kernelIdeal : Cert.frame_KernelIdeal := fun m ρ _ => Cert.KernelIdeal.Frm.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the specification's box deltas and scores of the arguments they agree on. -/
theorem algebraic : Cert.algebraic_KernelIdeal_ReferenceIdeal := by
  intro m ρ m' ρ' _ hagree
  refine ⟨fun c => Cert.KernelIdeal.Val.specDeltas m c, fun c => Cert.KernelIdeal.Val.specScore m c,
    Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v3_eq, Cert.RefSpec.deltas_eq, (hagree c).1, (hagree c).2.1, (hagree c).2.2.1]
  · rw [Cert.ReferenceIdeal.Read.val_main_v13_eq, Cert.RefSpec.score_eq, (hagree c).1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
